-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part1 {F : FTy → Type} [FloatOps F] (main_arg4 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S1x10000x128 .f32) (main_arg1 : FVec F S1x10000x10000 .f32) (main_arg2 : FVec F S128x128 .f32) (main_arg3 : FVec F S128 .f32) (main_arg4 : FVec F S_ .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩
abbrev S10000x128 : Shape := ⟨2, ![10000, 128]⟩
abbrev S10000x10000 : Shape := ⟨2, ![10000, 10000]⟩
abbrev S1x128 : Shape := ⟨2, ![1, 128]⟩
abbrev S1x1 : Shape := ⟨2, ![1, 1]⟩
abbrev S400x10000 : Shape := ⟨2, ![400, 10000]⟩
abbrev S400x128 : Shape := ⟨2, ![400, 128]⟩

abbrev nBuf : Space → Nat
  | .hbm => 11
  | .vmem => 9
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S10000x128, .f32⟩
  | .hbm, ⟨6, _⟩ => ⟨S10000x10000, .f32⟩
  | .hbm, ⟨7, _⟩ => ⟨S1x128, .f32⟩
  | .hbm, ⟨8, _⟩ => ⟨S1x1, .f32⟩
  | .hbm, ⟨9, _⟩ => ⟨S10000x128, .f32⟩
  | .hbm, ⟨10, _⟩ => ⟨S1x10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S1x1, .f32⟩
  | .local _ .vmem, ⟨6, _⟩ => ⟨S400x128, .f32⟩
  | .local _ .vmem, ⟨7, _⟩ => ⟨S400x128, .f32⟩
  | .local _ .vmem, ⟨8, _⟩ => ⟨S10000x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x10000x128_S10000x128 : S1x10000x128.ShapeCasts S10000x128
  shapeCasts_S1x10000x10000_S10000x10000 : S1x10000x10000.ShapeCasts S10000x10000
  shapeCasts_S128_S1x128 : S128.ShapeCasts S1x128
  shapeCasts_S_S1x1 : S_.ShapeCasts S1x1
  shapeCasts_S10000x128_S1x10000x128 : S10000x128.ShapeCasts S1x10000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_call0_v0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩
abbrev S10000x10000 : Shape := ⟨2, ![10000, 10000]⟩
abbrev S10000x128 : Shape := ⟨2, ![10000, 128]⟩
abbrev S1x1x128 : Shape := ⟨3, ![1, 1, 128]⟩

abbrev nBuf : Space → Nat
  | .hbm => 22
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S1x10000x128, .f32⟩
  | .hbm, ⟨6, _⟩ => ⟨S10000x10000, .f32⟩
  | .hbm, ⟨7, _⟩ => ⟨S10000x128, .f32⟩
  | .hbm, ⟨8, _⟩ => ⟨S10000x128, .f32⟩
  | .hbm, ⟨9, _⟩ => ⟨S1x10000x128, .f32⟩
  | .hbm, ⟨10, _⟩ => ⟨S1x1x128, .f32⟩
  | .hbm, ⟨11, _⟩ => ⟨S1x10000x128, .f32⟩
  | .hbm, ⟨12, _⟩ => ⟨S1x10000x128, .f32⟩
  | .hbm, ⟨13, _⟩ => ⟨S_, .f32⟩
  | .hbm, ⟨14, _⟩ => ⟨S1x10000x128, .f32⟩
  | .hbm, ⟨15, _⟩ => ⟨S1x10000x128, .f32⟩
  | .hbm, ⟨16, _⟩ => ⟨S_, .f32⟩
  | .hbm, ⟨17, _⟩ => ⟨S1x10000x128, .f32⟩
  | .hbm, ⟨18, _⟩ => ⟨S1x10000x128, .f32⟩
  | .hbm, ⟨19, _⟩ => ⟨S1x10000x128, .f32⟩
  | .hbm, ⟨20, _⟩ => ⟨S1x10000x128, .f32⟩
  | .hbm, ⟨21, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  shapeCasts_S1x10000x10000_S10000x10000 : S1x10000x10000.ShapeCasts S10000x10000
  shapeCasts_S1x10000x128_S10000x128 : S1x10000x128.ShapeCasts S10000x128
  bcast_S10000x128_S1x10000x128_1_2 : S10000x128.BroadcastsInDim S1x10000x128 (![1, 2] : Fin 2 → Fin S1x10000x128.rank)
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  bcast_S_S1x10000x128 : S_.BroadcastsInDim S1x10000x128 (![] : Fin 0 → Fin S1x10000x128.rank)
  dot_S1x10000x128_S128x128_S1x10000x128_2_1_01_0_n_n_wf : DotDims.WF S1x10000x128 S128x128 S1x10000x128 [2] [1] [0, 1] [0] [] []
  dot_S10000x10000_S10000x128_S10000x128_1_0_0_1_n_n_wf : DotDims.WF S10000x10000 S10000x128 S10000x128 [1] [0] [0] [1] [] []

variable [Facts₀]

def dot_S1x10000x128_S128x128_S1x10000x128_2_1_01_0_n_n : DotDims S1x10000x128 S128x128 S1x10000x128 where
  lhsContracting := [2]
  rhsContracting := [1]
  lhsNonContracting := [0, 1]
  rhsNonContracting := [0]
  lhsBatch := []
  rhsBatch := []
  wf := dot_S1x10000x128_S128x128_S1x10000x128_2_1_01_0_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.GcnSpec.lean ====
/-
  The graph-convolution layer as ONE function of its five arrays, over the extended reals.

  Node `k`'s transformed feature `f` is the inner product of row `k` of `seq` with row `f` of `W` (the
  linear map `seq · Wᵀ`); node `r`'s aggregate is the `adj`-weighted sum of the transformed features over all
  nodes `k`, plus the bias of feature `f`; the result is PReLU of the aggregate, `max x 0 + a · min x 0`, with one
  slope `a` for the whole array. Both programs compute exactly these sums in exactly this nesting: no sum is
  re-associated and nothing is distributed, so the equality holds at every extended real, the infinities included.

  Stated twice: over the [1, 10000, 128] result (`layer`) and over the [10000, 128] array the row tiles fill
  (`layer2`); the first read at `(0, r, f)` is the second at `(r, f)`.
-/
import Idealize.ShloMosaic.PureOps.Ideal
import Idealize.ShloMosaic.Lib.ValueIdx

noncomputable section

namespace Cert.Gcn

open Idealize.ShloMosaic Idealize.ShloMosaic.ValueIdx

/-- The shapes of the five arguments, of the result, and of the result with its unit axis dropped. -/
abbrev Seq3 : Shape := ⟨3, ![1, 10000, 128]⟩
abbrev Adj3 : Shape := ⟨3, ![1, 10000, 10000]⟩
abbrev Wt2 : Shape := ⟨2, ![128, 128]⟩
abbrev Bias1 : Shape := ⟨1, ![128]⟩
abbrev Scal0 : Shape := ⟨0, ![]⟩
abbrev Out2 : Shape := ⟨2, ![10000, 128]⟩

/-- The zero both programs compare against: the word `+0.0`. -/
abbrev zeroE : EReal := Ideal.ofBits .f32 0x00000000#32

/-- Node `k`'s transformed feature `f`: `∑_d seq[0, k, d] · W[f, d]`. -/
def feat (seq : Seq3.Idx → EReal) (W : Wt2.Idx → EReal) (k : Fin 10000) (f : Fin 128) : EReal :=
  ∑ d : Fin 128, seq (ix3 (0 : Fin 1) k d) * W (ix2 f d)

/-- Node `r`'s aggregate of feature `f`: `∑_k adj[0, r, k] · feat k f`, plus the bias of `f`. -/
def agg (seq : Seq3.Idx → EReal) (adj : Adj3.Idx → EReal) (W : Wt2.Idx → EReal) (bias : Bias1.Idx → EReal)
    (r : Fin 10000) (f : Fin 128) : EReal :=
  (∑ k : Fin 10000, adj (ix3 (0 : Fin 1) r k) * feat seq W k f) + bias (ix1 f)

/-- PReLU with slope `a`: the positive part, plus `a` times the negative part. -/
def prelu (a x : EReal) : EReal := max x zeroE + a * min x zeroE

/-- The layer over the [10000, 128] array of (node, feature) pairs. -/
def layer2 (seq : Seq3.Idx → EReal) (adj : Adj3.Idx → EReal) (W : Wt2.Idx → EReal) (bias : Bias1.Idx → EReal)
    (a : Scal0.Idx → EReal) : Out2.Idx → EReal :=
  fun j => prelu (a ix0) (agg seq adj W bias (j 0) (j 1))

/-- The layer over the [1, 10000, 128] result. -/
def layer (seq : Seq3.Idx → EReal) (adj : Adj3.Idx → EReal) (W : Wt2.Idx → EReal) (bias : Bias1.Idx → EReal)
    (a : Scal0.Idx → EReal) : Seq3.Idx → EReal :=
  fun i => prelu (a ix0) (agg seq adj W bias (i 1) (i 2))

/-- The result at `(u, r, f)` is the two-axis array at `(r, f)`. -/
theorem layer_ix3 (seq : Seq3.Idx → EReal) (adj : Adj3.Idx → EReal) (W : Wt2.Idx → EReal) (bias : Bias1.Idx → EReal)
    (a : Scal0.Idx → EReal) (u : Fin 1) (r : Fin 10000) (f : Fin 128) :
    layer seq adj W bias a (ix3 u r f) = layer2 seq adj W bias a (ix2 r f) := rfl

end Cert.Gcn

end
-- ==== Proof.RefLayer.lean ====
/-
  The reference computes the layer. Its seventeen host operations, read one at a time at an index, are: a
  `dot_general` contracting the feature axis of `seq` with the second axis of `W` (the transformed features), two
  reshapes that drop the unit batch axis, a `dot_general` contracting the node axis of `adj` with the node axis of
  the transformed features (the aggregate), the bias broadcast along nodes and added, and PReLU spelt with a
  maximum, a minimum, a product with the broadcast slope and a sum. A reshape that drops a leading unit axis reads
  position `r · n + c` at `(0, r, c)`; with that, each operand index the stages compose is the index the
  specification names, and the two terms are the same sums in the same nesting.
-/
import proofs.«143079_g12309376271097_cont_fleet_1246_10_alg».proof.Proof.Gen.ReferenceIdeal.Read
import proofs.«143079_g12309376271097_cont_fleet_1246_10_alg».proof.Proof.GcnSpec

noncomputable section

namespace Cert.ReferenceIdeal.RefLayer

open Cert.ReferenceIdeal Cert.ReferenceIdeal.Read Idealize.ShloMosaic Idealize.ShloMosaic.ValueIdx Cert.Gcn

/-- The aggregate's left factor: the reshaped `adj` at `(r, k)` is `adj` at `(0, r, k)`. -/
theorem adj_at (r : Fin 10000) (f : Fin 128) (k : Fin 10000) :
    idx_main_v1 (lidx_main_v3 (ix2 r f) k) = ix3 (0 : Fin 1) r k := by
  funext a; apply Fin.ext
  have h0 : r.val < 10000 := r.isLt
  have hk : k.val < 10000 := k.isLt
  match a with
  | ⟨0, _⟩ => rfl
  | ⟨1, _⟩ => show (r.val * 10000 + k.val) / 10000 % 10000 = r.val; omega
  | ⟨2, _⟩ => show (r.val * 10000 + k.val) % 10000 = k.val; omega

/-- The aggregate's right factor: the reshaped transformed features at `(k, f)` are those at `(0, k, f)`. -/
theorem feat_at (r : Fin 10000) (f : Fin 128) (k : Fin 10000) :
    idx_main_v2 (ridx_main_v3 (ix2 r f) k) = ix3 (0 : Fin 1) k f := by
  funext a; apply Fin.ext
  have h1 : f.val < 128 := f.isLt
  have hk : k.val < 10000 := k.isLt
  match a with
  | ⟨0, _⟩ => rfl
  | ⟨1, _⟩ => show (k.val * 128 + f.val) / 128 % 10000 = k.val; omega
  | ⟨2, _⟩ => show (k.val * 128 + f.val) % 128 = f.val; omega

/-- The transformed feature `(0, k, f)` multiplies `seq` at `(0, k, d)` -/
theorem seq_at (k : Fin 10000) (f : Fin 128) (d : Fin 128) :
    lidx_main_v0 (ix3 (0 : Fin 1) k f) d = ix3 (0 : Fin 1) k d := by
  funext a
  match a with
  | ⟨0, _⟩ => rfl
  | ⟨1, _⟩ => rfl
  | ⟨2, _⟩ => rfl

/-- with `W` at `(f, d)`. -/
theorem w_at (k : Fin 10000) (f : Fin 128) (d : Fin 128) :
    ridx_main_v0 (ix3 (0 : Fin 1) k f) d = ix2 f d := by
  funext a
  match a with
  | ⟨0, _⟩ => rfl
  | ⟨1, _⟩ => rfl

/-- The broadcast back to three axes reads the aggregate at (node, feature). -/
theorem node_feat_at (u : Fin 1) (r : Fin 10000) (f : Fin 128) : idx_main_v4 (ix3 u r f) = ix2 r f := by
  funext a
  match a with
  | ⟨0, _⟩ => rfl
  | ⟨1, _⟩ => rfl

/-- The two broadcasts of the bias read it at the feature. -/
theorem bias_at (u : Fin 1) (r : Fin 10000) (f : Fin 128) : idx_main_v5 (idx_main_v6 (ix3 u r f)) = ix1 f := by
  funext a
  match a with
  | ⟨0, _⟩ => rfl

/-- The second `dot_general`, read at (node, feature): the `adj`-weighted sum of the transformed features. -/
theorem aggregate_at (x0 : S1x10000x128.Idx → EReal) (x1 : S1x10000x10000.Idx → EReal) (x2 : S128x128.Idx → EReal)
    (r : Fin 10000) (f : Fin 128) :
    val_main_v3 (F := Ideal) x0 x1 x2 (ix2 r f) = ∑ k : Fin 10000, x1 (ix3 (0 : Fin 1) r k) * feat x0 x2 k f := by
  rw [val_main_v3_apply]
  refine Finset.sum_congr rfl fun k _ => ?_
  rw [val_main_v1_apply, val_main_v2_apply, adj_at, feat_at, val_main_v0_apply]
  unfold feat
  refine congrArg (x1 (ix3 (0 : Fin 1) r k) * ·) (Finset.sum_congr rfl fun d _ => ?_)
  rw [seq_at, w_at]

/-- The reference's last stage is the layer of its five arguments. -/
theorem stage_eq_layer (x0 : S1x10000x128.Idx → EReal) (x1 : S1x10000x10000.Idx → EReal) (x2 : S128x128.Idx → EReal)
    (x3 : S128.Idx → EReal) (x4 : S_.Idx → EReal) :
    val_main_v14 (F := Ideal) x0 x1 x2 x3 x4 = layer x0 x1 x2 x3 x4 := by
  funext i
  obtain ⟨u, r, f, rfl⟩ : ∃ (u : Fin 1) (r : Fin 10000) (f : Fin 128), i = ix3 u r f := ⟨i 0, i 1, i 2, eq_ix3 i⟩
  rw [val_main_v14_apply, val_main_v9_apply, val_main_v13_apply, val_main_v11_apply, val_main_v12_apply,
    val_main_v8_apply, val_main_v10_apply, val_main_cst_apply, val_main_cst_0_apply, val_main_v7_apply,
    val_main_v4_apply, val_main_v6_apply, val_main_v5_apply, node_feat_at, bias_at, aggregate_at]
  rfl

end Cert.ReferenceIdeal.RefLayer

end
-- ==== Proof.Pieces.lean ====
/-
  What the kernel body leaves behind at each grid point, as values.

  The body has two control cases. At the first grid point it stores the transformed features — the product of the
  `seq` block with the transposed `W` block — over the whole scratch buffer, reads them back, and stores the
  point's output tile computed from them. At every later point it stores nothing into the scratch and computes its
  tile from what the scratch already holds. Each store covers its whole buffer at zero offsets, so what a buffer
  holds afterwards is the one stored payload, and a load after such a store reads that payload.

  Hence, by induction on the point, the scratch holds the transformed features of the FIRST point's blocks after
  every point (`scratch_eq`), and every point's output tile is the tile payload of that point's `adj` row block,
  those features, the bias row and the slope (`tile_eq`).
-/
import proofs.«143079_g12309376271097_cont_fleet_1246_10_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- FIRST POINT, the scratch: the one store over the whole buffer leaves the transformed features of the loaded
    `seq` and `W` blocks. -/
theorem scratch_first (c : Dev nD) (i : grid0.Coords) (a1 : Memref sig .tc .vmem S10000x128 .f32) (h1 : a1.IsWhole) (a2 : Memref sig .tc .vmem S400x10000 .f32) (h2 : a2.IsWhole) (a3 : Memref sig .tc .vmem S128x128 .f32) (h3 : a3.IsWhole) (a4 : Memref sig .tc .vmem S1x128 .f32) (h4 : a4.IsWhole) (a5 : Memref sig .tc .vmem S1x1 .f32) (h5 : a5.IsWhole) (a6 : Memref sig .tc .vmem S400x128 .f32) (h6 : a6.IsWhole) (a7 : Memref sig .tc .vmem S10000x128 .f32) (h7 : a7.IsWhole) (hc : cond0_0 i) (x0 : Vec F S10000x128 .f32) (x1 : Vec F S400x10000 .f32) (x2 : Vec F S128x128 .f32) (x3 : Vec F S1x128 .f32) (x4 : Vec F S1x1 .f32) :
    sout0_A_0 c i a1 h1 a2 h2 a3 h3 a4 h4 a5 h5 a6 h6 a7 h7 hc x0 x1 x2 x3 x4 = k0_pay1 x0 x2 := by
  unfold sout0_A_0
  rw [View.read_writes_eq_canon _ _ _ (scover0_A_0 c i a1 h1 a2 h2 a3 h3 a4 h4 a5 h5 a6 h6 a7 h7 hc x0 x1 x2 x3 x4)]
  unfold kernelRun0_A
  dsimp only
  sl_unfold_words
  rw [View.canon_unit_zero hz]
  simp only [View.readAt_eq_ld, h1.read_unread, h3.read_unread, View.ld_unit_zero (S := S10000x128) hz,
    View.ld_unit_zero (S := S128x128) hz]

/-- FIRST POINT, the output tile: computed from the features just stored, read back through the same whole-buffer
    rectangle. -/
theorem tile_first (c : Dev nD) (i : grid0.Coords) (a1 : Memref sig .tc .vmem S10000x128 .f32) (h1 : a1.IsWhole) (a2 : Memref sig .tc .vmem S400x10000 .f32) (h2 : a2.IsWhole) (a3 : Memref sig .tc .vmem S128x128 .f32) (h3 : a3.IsWhole) (a4 : Memref sig .tc .vmem S1x128 .f32) (h4 : a4.IsWhole) (a5 : Memref sig .tc .vmem S1x1 .f32) (h5 : a5.IsWhole) (a6 : Memref sig .tc .vmem S400x128 .f32) (h6 : a6.IsWhole) (a7 : Memref sig .tc .vmem S10000x128 .f32) (h7 : a7.IsWhole) (hc : cond0_0 i) (x0 : Vec F S10000x128 .f32) (x1 : Vec F S400x10000 .f32) (x2 : Vec F S128x128 .f32) (x3 : Vec F S1x128 .f32) (x4 : Vec F S1x1 .f32) :
    out0_A_5 c i a1 h1 a2 h2 a3 h3 a4 h4 a5 h5 a6 h6 a7 h7 hc x0 x1 x2 x3 x4 = k0_pay2 x1 (k0_pay1 x0 x2) x3 x4 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.readCov_unit_zero (S := S10000x128) _ hz, View.ld_unit_zero (S := S10000x128) hz,
    View.ld_unit_zero (S := S128x128) hz, View.ld_unit_zero (S := S400x10000) hz, View.ld_unit_zero (S := S1x128) hz,
    View.ld_unit_zero (S := S1x1) hz]

/-- A LATER POINT, the output tile: computed from what the scratch holds on entry. -/
theorem tile_later (c : Dev nD) (i : grid0.Coords) (a1 : Memref sig .tc .vmem S10000x128 .f32) (h1 : a1.IsWhole) (a2 : Memref sig .tc .vmem S400x10000 .f32) (h2 : a2.IsWhole) (a3 : Memref sig .tc .vmem S128x128 .f32) (h3 : a3.IsWhole) (a4 : Memref sig .tc .vmem S1x128 .f32) (h4 : a4.IsWhole) (a5 : Memref sig .tc .vmem S1x1 .f32) (h5 : a5.IsWhole) (a6 : Memref sig .tc .vmem S400x128 .f32) (h6 : a6.IsWhole) (a7 : Memref sig .tc .vmem S10000x128 .f32) (h7 : a7.IsWhole) (hc : ¬cond0_0 i) (x0 : Vec F S10000x128 .f32) (x1 : Vec F S400x10000 .f32) (x2 : Vec F S128x128 .f32) (x3 : Vec F S1x128 .f32) (x4 : Vec F S1x1 .f32) (xs0 : Vec F S10000x128 .f32) :
    out0_B_5 c i a1 h1 a2 h2 a3 h3 a4 h4 a5 h5 a6 h6 a7 h7 hc x0 x1 x2 x3 x4 xs0 = k0_pay2 x1 xs0 x3 x4 := by
  unfold out0_B_5
  rw [View.read_writes_eq_canon _ _ _ (cover0_B_5 c i a1 h1 a2 h2 a3 h3 a4 h4 a5 h5 a6 h6 a7 h7 hc x0 x1 x2 x3 x4 xs0)]
  unfold kernelRun0_B
  dsimp only
  sl_unfold_words
  rw [View.canon_unit_zero hz]
  simp only [View.readAt_eq_ld, h2.read_unread, h4.read_unread, h5.read_unread, h7.read_unread,
    View.ld_unit_zero (S := S10000x128) hz, View.ld_unit_zero (S := S400x10000) hz, View.ld_unit_zero (S := S1x128) hz,
    View.ld_unit_zero (S := S1x1) hz]

variable (m : (ℓ : Loc nD τ sig) → Buf (Elt F) ℓ)

/-- The five input blocks at a grid point, each at its literal shape: the whole `seq`, a 400-row block of `adj`,
    the whole `W`, the bias row, the slope. -/
abbrev seqBlk (c : Dev nD) (t : Fin cfg0.N) : Vec F S10000x128 .f32 := iblk m c 0 t
abbrev adjBlk (c : Dev nD) (t : Fin cfg0.N) : Vec F S400x10000 .f32 := iblk m c 1 t
abbrev wBlk (c : Dev nD) (t : Fin cfg0.N) : Vec F S128x128 .f32 := iblk m c 2 t
abbrev biasBlk (c : Dev nD) (t : Fin cfg0.N) : Vec F S1x128 .f32 := iblk m c 3 t
abbrev slopeBlk (c : Dev nD) (t : Fin cfg0.N) : Vec F S1x1 .f32 := iblk m c 4 t

/-- The grid's first point. -/
abbrev first : Fin cfg0.N := ⟨0, by rw [show cfg0.N = 25 from N_0]; decide⟩

/-- The transformed features: the scratch payload of the first point's `seq` and `W` blocks. -/
def feats (c : Dev nD) : Vec F S10000x128 .f32 := k0_pay1 (seqBlk m c first) (wBlk m c first)

/-- After EVERY point the scratch holds the transformed features: stored at the first point, untouched after. -/
theorem scratch_eq (c : Dev nD) : ∀ (n : ℕ) (h : n < cfg0.N), (outsAt0 m c n h).2 = feats m c
  | 0, h => by
    rw [outsAt0_A m c ⟨0, h⟩ rfl]
    dsimp only
    exact scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩)
  | n + 1, h => by
    have hN : cfg0.N = 25 := N_0
    have hB : ¬(⟨n + 1, h⟩ : Fin cfg0.N).val % 25 = 0 := by dsimp only; omega
    rw [outsAt0_B m c ⟨n + 1, h⟩ hB]
    dsimp only
    unfold sout0_B_0
    exact scratch_eq c n (Nat.lt_of_succ_lt h)

/-- Every point's output tile: the tile payload of the point's `adj` block, the transformed features, the bias
    row and the slope. -/
theorem tile_eq (c : Dev nD) (t : Fin cfg0.N) :
    (outsAt0 m c t.val t.isLt).1 = k0_pay2 (adjBlk m c t) (feats m c) (biasBlk m c t) (slopeBlk m c t) := by
  have hN : cfg0.N = 25 := N_0
  by_cases h0 : t.val % 25 = 0
  · obtain rfl : t = first := Fin.ext (by have := t.isLt; show t.val = 0; omega)
    rw [outsAt0_A m c first h0]
    dsimp only
    exact tile_first c (grid0.coords first) (ms0_0 first) (hs0_0 first) (ms0_1 first) (hs0_1 first) (ms0_2 first) (hs0_2 first) (ms0_3 first) (hs0_3 first) (ms0_4 first) (hs0_4 first) (ms0_5 first) (hs0_5 first) scM0_0 (Memref.isWhole_whole _) ((hcond0_0 first).mpr h0) (iblk m c 0 first) (iblk m c 1 first) (iblk m c 2 first) (iblk m c 3 first) (iblk m c 4 first)
  · rw [outsAt0_B m c t h0]
    dsimp only
    refine (tile_later c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t)
      (outsAt0 m c (t.val - 1) (Nat.lt_of_le_of_lt (Nat.sub_le _ _) t.isLt)).2).trans ?_
    rw [scratch_eq m c (t.val - 1) (Nat.lt_of_le_of_lt (Nat.sub_le _ _) t.isLt)]

end Cert.KernelIdeal.Pieces

end
-- ==== Proof.Payloads.lean ====
/-
  The body's two stored values, read at an index over the extended reals.

  The scratch payload is the product of the `seq` block with the transposed `W` block into a zero accumulator:
  at `(n, f)` it is `∑_d seq(n, d) · W(f, d)` — the transposed matrix at `(d, f)` is `W` at `(f, d)`, and a
  product into the zero block is the bare sum, since `0 + x = x` at every extended real.

  The tile payload is, at row `p` of the tile and feature `f`, PReLU with the loaded slope of
  `∑_k adj(p, k) · feats(k, f)` plus the bias row at `f` (the row is broadcast down the tile's 400 rows).

  A product's contraction index ranges over a one-axis shape; each sum is re-indexed by that axis's coordinate.
-/
import proofs.«143079_g12309376271097_cont_fleet_1246_10_alg».proof.Proof.Gen.KernelIdeal.Skeleton
import proofs.«143079_g12309376271097_cont_fleet_1246_10_alg».proof.Proof.GcnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payloads

open Cert.KernelIdeal Cert.KernelIdeal.Gen Idealize.ShloMosaic Idealize.ShloMosaic.ValueIdx

/-! ## The features product: which operand entries meet at output `(n, f)` and contraction coordinate `d` -/

theorem lhs_feat_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_feat_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_feat_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_feat_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The scratch payload at node `n`, feature `f`: row `n` of the `seq` block against row `f` of the `W` block. -/
theorem feat_payload_at (x0 : FVec Ideal S10000x128 .f32) (x2 : FVec Ideal S128x128 .f32) (n : Fin 10000) (f : Fin 128) :
    k0_pay1 (F := Ideal) x0 x2 (ix2 n f) = ∑ d : Fin 128, x0 (ix2 n d) * x2 (ix2 f d) := by
  unfold k0_pay1
  simp only [shapeCast_self]
  refine (Ideal.matmul_constant_zero_apply dot_S10000x128_S128x128_S10000x128_1_0_0_1_n_n none x0
    (transpose S128x128 [1, 0] x2 transposes_S128x128_p1_0_S128x128) (ix2 n f)).trans ?_
  rw [← Equiv.sum_comp (contrEquiv1 dot_S10000x128_S128x128_S10000x128_1_0_0_1_n_n 128 rfl rfl).symm]
  refine Finset.sum_congr rfl fun d _ => ?_
  have hk := contrEquiv1_symm_val dot_S10000x128_S128x128_S10000x128_1_0_0_1_n_n 128 rfl rfl d
  have el : dot_S10000x128_S128x128_S10000x128_1_0_0_1_n_n.lhsIdx (ix2 n f) ((contrEquiv1 dot_S10000x128_S128x128_S10000x128_1_0_0_1_n_n 128 rfl rfl).symm d) = ix2 n d := funext fun a => Fin.ext (by
    match a with
    | ⟨0, _⟩ => exact lhs_feat_0 _ _
    | ⟨1, _⟩ => exact (lhs_feat_1 _ _).trans hk)
  have er : dot_S10000x128_S128x128_S10000x128_1_0_0_1_n_n.rhsIdx (ix2 n f) ((contrEquiv1 dot_S10000x128_S128x128_S10000x128_1_0_0_1_n_n 128 rfl rfl).symm d) = ix2 d f := funext fun a => Fin.ext (by
    match a with
    | ⟨0, _⟩ => exact (rhs_feat_0 _ _).trans hk
    | ⟨1, _⟩ => exact rhs_feat_1 _ _)
  rw [el, er, transpose_ix2_apply]

/-! ## The aggregation product: output `(p, f)` of a tile, contraction coordinate `k` over all nodes -/

theorem lhs_tile_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_tile_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_tile_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_tile_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- A tile's aggregate at `(p, f)`: row `p` of the `adj` block against column `f` of the features, plus the bias. -/
theorem aggregate_tile_at (x1 : FVec Ideal S400x10000 .f32) (x5 : FVec Ideal S10000x128 .f32) (x7 : FVec Ideal S1x128 .f32)
    (p : Fin 400) (f : Fin 128) :
    addf (matmul dot_S400x10000_S10000x128_S400x128_1_0_0_1_n_n none x1 x5 (constant (F := Ideal) S400x128 .f32 0x00000000#32))
        (broadcastTo S400x128 x7 broadcasts_S1x128_S400x128) (ix2 p f)
      = (∑ k : Fin 10000, x1 (ix2 p k) * x5 (ix2 k f)) + x7 (ix2 (0 : Fin 1) f) := by
  show FloatOps.matmul dot_S400x10000_S10000x128_S400x128_1_0_0_1_n_n none x1 x5 (constant (F := Ideal) S400x128 .f32 0x00000000#32) (ix2 p f)
      + broadcastTo S400x128 x7 broadcasts_S1x128_S400x128 (ix2 p f) = _
  rw [broadcastTo_1b_ab_apply]
  refine congrArg (· + x7 (ix2 (0 : Fin 1) f)) ?_
  refine (Ideal.matmul_constant_zero_apply dot_S400x10000_S10000x128_S400x128_1_0_0_1_n_n none x1 x5 (ix2 p f)).trans ?_
  rw [← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p f) ((contrEquiv1 dot_S400x10000_S10000x128_S400x128_1_0_0_1_n_n 10000 rfl rfl).symm k) = ix2 p k := funext fun a => Fin.ext (by
    match a with
    | ⟨0, _⟩ => exact lhs_tile_0 _ _
    | ⟨1, _⟩ => exact (lhs_tile_1 _ _).trans hk)
  have er : dot_S400x10000_S10000x128_S400x128_1_0_0_1_n_n.rhsIdx (ix2 p f) ((contrEquiv1 dot_S400x10000_S10000x128_S400x128_1_0_0_1_n_n 10000 rfl rfl).symm k) = ix2 k f := funext fun a => Fin.ext (by
    match a with
    | ⟨0, _⟩ => exact (rhs_tile_0 _ _).trans hk
    | ⟨1, _⟩ => exact rhs_tile_1 _ _)
  rw [el, er]

/-- The slope the body extracts from its 1 × 1 block is that block's one entry. -/
theorem slope_at (x11 : FVec Ideal S1x1 .f32) :
    extractAt ![0, 0] x11 inpos_S1x1_p0_0 = x11 (ix2 (0 : Fin 1) (0 : Fin 1)) := by
  unfold extractAt
  refine congrArg x11 (funext fun a => ?_)
  match a with
  | ⟨0, _⟩ => rfl
  | ⟨1, _⟩ => rfl

/-- The tile payload at `(p, f)`: PReLU, with the loaded slope, of the tile's aggregate there. -/
theorem tile_payload_at (x1 : FVec Ideal S400x10000 .f32) (x5 : FVec Ideal S10000x128 .f32) (x7 : FVec Ideal S1x128 .f32)
    (x11 : FVec Ideal S1x1 .f32) (p : Fin 400) (f : Fin 128) :
    k0_pay2 (F := Ideal) x1 x5 x7 x11 (ix2 p f)
      = Cert.Gcn.prelu (x11 (ix2 (0 : Fin 1) (0 : Fin 1)))
          ((∑ k : Fin 10000, x1 (ix2 p k) * x5 (ix2 k f)) + x7 (ix2 (0 : Fin 1) f)) := by
  unfold Cert.Gcn.prelu
  rw [← aggregate_tile_at x1 x5 x7 p f, ← slope_at x11]
  unfold k0_pay2
  simp only [shapeCast_self]
  rfl

end Cert.KernelIdeal.Payloads

end
-- ==== Proof.Blocks.lean ====
/-
  The kernel's blocks, read at an index, in terms of the five argument arrays.

  Before the region the host drops the unit axes: `seq` and `adj` lose their batch axis, the bias becomes a
  one-row matrix and the slope a 1 × 1 matrix; `W` is passed as it is. The windows then cut blocks out of those
  arrays: `seq`, `W`, the bias row and the slope are taken whole at every grid point (block index `(0, 0)`),
  while point `t` takes rows `400 t … 400 t + 399` of `adj` and writes rows `400 t … 400 t + 399` of the
  result (block index `(t, 0)`). A block's entry `y` on an axis is the array's entry `index · size + y`.

  With the payload reads this gives: the transformed features held in the scratch are the specification's
  `feat`, and the tile a point writes is the specification's layer on that point's rows.
-/
import proofs.«143079_g12309376271097_cont_fleet_1246_10_alg».proof.Proof.Pieces
import proofs.«143079_g12309376271097_cont_fleet_1246_10_alg».proof.Proof.Payloads
import Idealize.ShloMosaic.Lib.StableHlo.Run

noncomputable section

namespace Cert.KernelIdeal.Blocks

open Cert.KernelIdeal Cert.KernelIdeal.Gen Cert.KernelIdeal.Pieces Cert.KernelIdeal.Payloads
open Idealize.ShloMosaic Idealize.ShloMosaic.TcCoe Idealize.SL.Sem Idealize.ShloMosaic.ValueIdx
open Idealize.ShloMosaic.Pipeline (Dat)

/-- The windows' block indices, decided over the 25 grid points. -/
theorem index_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Entry

variable {F : FTy → Type} [FloatOps F]
variable (m : (ℓ : Loc nD τ sig) → Buf (Elt F) ℓ)

/-! ## The arrays as the region finds them: the arguments with their unit axes dropped -/

theorem entry_seq (c : Dev nD) : (V m c main_call0_v0 : S10000x128.Idx → Elt F .f32)
    = shapeCast S10000x128 (m ((c : Thread nD τ).loc main_arg0)) shapeCasts_S1x10000x128_S10000x128 := by
  show StableHlo.after hostOps0 (fun b => m (c, b)) (Proc.devRef .tc main_call0_v0) = _
  after_results; rfl

theorem entry_adj (c : Dev nD) : (V m c main_call0_v1 : S10000x10000.Idx → Elt F .f32)
    = shapeCast S10000x10000 (m ((c : Thread nD τ).loc main_arg1)) shapeCasts_S1x10000x10000_S10000x10000 := by
  show StableHlo.after hostOps0 (fun b => m (c, b)) (Proc.devRef .tc main_call0_v1) = _
  after_results; rfl

theorem entry_bias (c : Dev nD) : (V m c main_call0_v2 : S1x128.Idx → Elt F .f32)
    = shapeCast S1x128 (m ((c : Thread nD τ).loc main_arg3)) shapeCasts_S128_S1x128 := by
  show StableHlo.after hostOps0 (fun b => m (c, b)) (Proc.devRef .tc main_call0_v2) = _
  after_results; rfl

theorem entry_slope (c : Dev nD) : (V m c main_call0_v3 : S1x1.Idx → Elt F .f32)
    = shapeCast S1x1 (m ((c : Thread nD τ).loc main_arg4)) shapeCasts_S_S1x1 := by
  show StableHlo.after hostOps0 (fun b => m (c, b)) (Proc.devRef .tc main_call0_v3) = _
  after_results; rfl

/-! ## The blocks at a grid point -/

/-- The `seq` block is the whole array at every point. -/
theorem seqBlk_at (c : Dev nD) (t : Fin cfg0.N) (n : Fin 10000) (d : Fin 128) :
    seqBlk m c t (ix2 n d) = ((m ((c : Thread nD τ).loc main_arg0)) : S1x10000x128.Idx → Elt F .f32) (ix3 (0 : Fin 1) n d) := by
  obtain ⟨e00, e01, -⟩ := index_facts t
  refine Eq.trans ?_ (shapeCast_1ab_ab_apply (m ((c : Thread nD τ).loc main_arg0)) shapeCasts_S1x10000x128_S10000x128 n d)
  rw [← entry_seq m c]
  unfold seqBlk iblk
  rw [View.read_apply]
  show V m c main_call0_v0 _ = V m c main_call0_v0 _
  congr 1
  funext a
  apply Fin.ext
  match a with
  | ⟨0, _⟩ => show win0_0.index t 0 * 10000 + 1 * n.val = n.val; rw [e00]; omega
  | ⟨1, _⟩ => show win0_0.index t 1 * 128 + 1 * d.val = d.val; rw [e01]; omega

/-- Point `t`'s `adj` block is rows `400 t …` of the array. -/
theorem adjBlk_at (c : Dev nD) (t : Fin cfg0.N) (p : Fin 400) (k : Fin 10000) (r : Fin 10000)
    (hr : r.val = 400 * t.val + p.val) :
    adjBlk m c t (ix2 p k) = ((m ((c : Thread nD τ).loc main_arg1)) : S1x10000x10000.Idx → Elt F .f32) (ix3 (0 : Fin 1) r k) := by
  obtain ⟨-, -, e10, e11, -⟩ := index_facts t
  refine Eq.trans ?_ (shapeCast_1ab_ab_apply (m ((c : Thread nD τ).loc main_arg1)) shapeCasts_S1x10000x10000_S10000x10000 r k)
  rw [← entry_adj m c]
  unfold adjBlk iblk
  rw [View.read_apply]
  show V m c main_call0_v1 _ = V m c main_call0_v1 _
  congr 1
  funext a
  apply Fin.ext
  match a with
  | ⟨0, _⟩ => show win0_1.index t 0 * 400 + 1 * p.val = r.val; rw [e10, hr]; omega
  | ⟨1, _⟩ => show win0_1.index t 1 * 10000 + 1 * k.val = k.val; rw [e11]; omega

/-- The `W` block is the whole argument at every point. -/
theorem wBlk_at (c : Dev nD) (t : Fin cfg0.N) (f : Fin 128) (d : Fin 128) :
    wBlk m c t (ix2 f d) = ((m ((c : Thread nD τ).loc main_arg2)) : S128x128.Idx → Elt F .f32) (ix2 f d) := by
  obtain ⟨-, -, -, -, e20, e21, -⟩ := index_facts t
  rw [← V_main_arg2 m c]
  unfold wBlk iblk
  rw [View.read_apply]
  show V m c main_arg2 _ = V m c main_arg2 _
  congr 1
  funext a
  apply Fin.ext
  match a with
  | ⟨0, _⟩ => show win0_2.index t 0 * 128 + 1 * f.val = f.val; rw [e20]; omega
  | ⟨1, _⟩ => show win0_2.index t 1 * 128 + 1 * d.val = d.val; rw [e21]; omega

/-- The bias block is the bias as one row. -/
theorem biasBlk_at (c : Dev nD) (t : Fin cfg0.N) (f : Fin 128) :
    biasBlk m c t (ix2 (0 : Fin 1) f) = ((m ((c : Thread nD τ).loc main_arg3)) : S128.Idx → Elt F .f32) (ix1 f) := by
  obtain ⟨-, -, -, -, -, -, e30, e31, -⟩ := index_facts t
  refine Eq.trans ?_ (shapeCast_a_1a_apply (m ((c : Thread nD τ).loc main_arg3)) shapeCasts_S128_S1x128 (0 : Fin 1) f)
  rw [← entry_bias m c]
  unfold biasBlk iblk
  rw [View.read_apply]
  show V m c main_call0_v2 _ = V m c main_call0_v2 _
  congr 1
  funext a
  apply Fin.ext
  match a with
  | ⟨0, _⟩ => show win0_3.index t 0 * 1 + 1 * 0 = 0; rw [e30]
  | ⟨1, _⟩ => show win0_3.index t 1 * 128 + 1 * f.val = f.val; rw [e31]; omega

/-- The slope block's one entry is the slope. -/
theorem slopeBlk_at (c : Dev nD) (t : Fin cfg0.N) :
    slopeBlk m c t (ix2 (0 : Fin 1) (0 : Fin 1)) = ((m ((c : Thread nD τ).loc main_arg4)) : S_.Idx → Elt F .f32) ix0 := by
  refine Eq.trans ?_ (show shapeCast S1x1 (m ((c : Thread nD τ).loc main_arg4)) shapeCasts_S_S1x1 (ix2 (0 : Fin 1) (0 : Fin 1)) = _ from
    congrArg (m ((c : Thread nD τ).loc main_arg4)) (eq_ix0 _))
  rw [← entry_slope m c]
  obtain ⟨-, -, -, -, -, -, -, -, e40, e41, -⟩ := index_facts t
  unfold slopeBlk iblk
  rw [View.read_apply]
  show V m c main_call0_v3 _ = V m c main_call0_v3 _
  congr 1
  funext a
  apply Fin.ext
  match a with
  | ⟨0, _⟩ => show win0_4.index t 0 * 1 + 1 * 0 = 0; rw [e40]
  | ⟨1, _⟩ => show win0_4.index t 1 * 1 + 1 * 0 = 0; rw [e41]

end Entry

/-! ## The scratch and the tiles against the specification, over the extended reals -/

variable (m : (ℓ : Loc nD τ sig) → Buf (Elt Ideal) ℓ)

/-- What the scratch holds is the specification's transformed features of `seq` and `W`. -/
theorem feats_at (c : Dev nD) (k : Fin 10000) (f : Fin 128) :
    feats m c (ix2 k f) = Cert.Gcn.feat (m ((c : Thread nD τ).loc main_arg0)) (m ((c : Thread nD τ).loc main_arg2)) k f := by
  unfold feats Cert.Gcn.feat
  refine (feat_payload_at (seqBlk m c first) (wBlk m c first) k f).trans ?_
  exact Finset.sum_congr rfl fun d _ => by rw [seqBlk_at, wBlk_at]

/-- The tile point `t` writes, at its row `p` and feature `f`, is the layer at node `400 t + p`. -/
theorem tile_at (c : Dev nD) (t : Fin cfg0.N) (p : Fin 400) (f : Fin 128) (r : Fin 10000) (hr : r.val = 400 * t.val + p.val) :
    k0_pay2 (adjBlk m c t) (feats m c) (biasBlk m c t) (slopeBlk m c t) (ix2 p f)
      = Cert.Gcn.layer2 (m ((c : Thread nD τ).loc main_arg0)) (m ((c : Thread nD τ).loc main_arg1)) (m ((c : Thread nD τ).loc main_arg2)) (m ((c : Thread nD τ).loc main_arg3)) (m ((c : Thread nD τ).loc main_arg4)) (ix2 r f) := by
  refine (tile_payload_at (adjBlk m c t) (feats m c) (biasBlk m c t) (slopeBlk m c t) p f).trans ?_
  rw [slopeBlk_at, biasBlk_at]
  show _ = Cert.Gcn.prelu ((m ((c : Thread nD τ).loc main_arg4)) ix0) (Cert.Gcn.agg (m ((c : Thread nD τ).loc main_arg0)) (m ((c : Thread nD τ).loc main_arg1)) (m ((c : Thread nD τ).loc main_arg2)) (m ((c : Thread nD τ).loc main_arg3)) r f)
  unfold Cert.Gcn.agg
  refine congrArg (fun s => Cert.Gcn.prelu ((m ((c : Thread nD τ).loc main_arg4)) ix0) (s + (m ((c : Thread nD τ).loc main_arg3)) (ix1 f))) ?_
  exact Finset.sum_congr rfl fun k _ => by rw [adjBlk_at m c t p k r hr, feats_at]

end Cert.KernelIdeal.Blocks

end
-- ==== Proof.Result.lean ====
/-
  From tiles to the result.

  Point `t` writes its tile back to rows `400 t … 400 t + 399` of the [10000, 128] result array, and the tile is
  the layer on those rows; row `r` lies in the tile of point `r / 400`, so the 25 tiles cover the array and it
  ends holding the layer everywhere. The host then restores the unit batch axis: the [1, 10000, 128] result at
  `(0, r, f)` is the array at `(r, f)`. The five arguments are never written.
-/
import proofs.«143079_g12309376271097_cont_fleet_1246_10_alg».proof.Proof.Blocks

noncomputable section

namespace Cert.KernelIdeal.Result

open Cert.KernelIdeal Cert.KernelIdeal.Gen Cert.KernelIdeal.Pieces Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The layer over (node, feature) pairs, of the arguments' launch contents on core `c`. -/
abbrev nodeLayer (c : Dev nD) : S10000x128.Idx → EReal := Cert.Gcn.layer2 (m ((c : Thread nD τ).loc main_arg0)) (m ((c : Thread nD τ).loc main_arg1)) (m ((c : Thread nD τ).loc main_arg2)) (m ((c : Thread nD τ).loc main_arg3)) (m ((c : Thread nD τ).loc main_arg4))

/-- WHAT POINT `t` WRITES BACK is rows `400 t … 400 t + 399` of the layer. -/
theorem flushed_eq (c : Dev nD) (t : Fin cfg0.N) :
    (dats m 0 c).flushed 5 t = ((cfg0.win 5).blk t).view.read (Elt Ideal) (nodeLayer m c) := by
  have hN : cfg0.N = 25 := N_0
  obtain ⟨-, -, -, -, -, -, -, -, -, -, e50, e51⟩ := index_facts t
  show (cfg0.win 5).cut (grid0.coords t) ((dats m 0 c).after 5 t) = _
  rw [after0_5, tile_eq]
  funext j
  obtain ⟨p, f, rfl⟩ : ∃ (p : Fin 400) (f : Fin 128), j = ix2 p f := ⟨j 0, j 1, eq_ix2 j⟩
  have ht : t.val < 25 := hN ▸ t.isLt
  show k0_pay2 (adjBlk m c t) (feats m c) (biasBlk m c t) (slopeBlk m c t) (ix2 p f)
    = nodeLayer m c (((cfg0.win 5).blk t).view.emb (ix2 p f))
  rw [tile_at m c t p f ⟨400 * t.val + p.val, by have := p.isLt; omega⟩ rfl]
  refine congrArg (nodeLayer m c) ?_
  funext a
  apply Fin.ext
  match a with
  | ⟨0, _⟩ => show 400 * t.val + p.val = win0_5.index t 0 * 400 + 1 * p.val; rw [e50]; omega
  | ⟨1, _⟩ => show f.val = win0_5.index t 1 * 128 + 1 * f.val; rw [e51]; omega

/-- An index of the array is in point `t`'s tile iff each coordinate is in the tile's range on its axis. -/
theorem mem_tile (t : Fin cfg0.N) (i : S10000x128.Idx) :
    i ∈ ((cfg0.win 5).blk t).view.set ↔ ∀ a : Fin 2, win0_5.index t a * S400x128.size a ≤ (i a).val
      ∧ (i a).val < win0_5.index t a * S400x128.size a + S400x128.size a := by
  show i ∈ ((View.whole main_call0_v4).slice (win0_5.rect t)).set ↔ _
  rw [View.set_slice_whole, Rect.mem_set_unit]
  exact Iff.rfl

/-- Every (node, feature) pair is in the tile of point `node / 400`. -/
theorem covered (i : S10000x128.Idx) :
    ∃ t : Fin cfg0.N, (cfg0.win 5).flush t = true ∧ i ∈ ((cfg0.win 5).blk t).view.set := by
  have hN : cfg0.N = 25 := N_0
  have h0 : (i 0).val < 10000 := (i 0).isLt
  have h1 : (i 1).val < 128 := (i 1).isLt
  refine ⟨⟨(i 0).val / 400, by rw [hN]; omega⟩, flush0_5 _, ?_⟩
  obtain ⟨-, -, -, -, -, -, -, -, -, -, e50, e51⟩ := index_facts ⟨(i 0).val / 400, by rw [hN]; omega⟩
  rw [mem_tile]
  intro a
  match a with
  | ⟨0, _⟩ =>
    show win0_5.index ⟨(i 0).val / 400, _⟩ 0 * 400 ≤ (i 0).val ∧ (i 0).val < win0_5.index ⟨(i 0).val / 400, _⟩ 0 * 400 + 400
    rw [e50]; show (i 0).val / 400 * 400 ≤ (i 0).val ∧ (i 0).val < (i 0).val / 400 * 400 + 400; omega
  | ⟨1, _⟩ =>
    show win0_5.index ⟨(i 0).val / 400, _⟩ 1 * 128 ≤ (i 1).val ∧ (i 1).val < win0_5.index ⟨(i 0).val / 400, _⟩ 1 * 128 + 128
    rw [e51]; omega

/-- THE RESULT ARRAY after the region: the layer. -/
theorem final (c : Dev nD) : (dats m 0 c).arrAt 5 cfg0.N = nodeLayer m c :=
  (dats m 0 c).arrAt_eq_of_cover 5 (nodeLayer m c) (fun t _ => flushed_eq m c t) covered

/-- The program's result: the host's reshape of the result array puts the unit batch axis back. -/
theorem result_eq (c : Dev nD) :
    Pipeline.afterTail₀ cfgs (dats m) 0 (V0 m) [hostOps1] c main_v0 = Cert.Gcn.layer (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  show StableHlo.after hostOps1 _ (Proc.devRef .tc main_v0) = _
  after_results
  rw [(Pipeline.withArrays_arr spec0 launch0.win.arr_inj c _ _ 5).trans (final m c)]
  funext i
  obtain ⟨u, r, f, rfl⟩ : ∃ (u : Fin 1) (r : Fin 10000) (f : Fin 128), i = ix3 u r f := ⟨i 0, i 1, i 2, eq_ix3 i⟩
  exact (shapeCast_ab_1ab_apply (nodeLayer m c) shapeCasts_S10000x128_S1x10000x128 u r f).trans
    (Cert.Gcn.layer_ix3 _ _ _ _ _ u r f).symm

/-- THE RUN, READ: every weakly fair execution of the idealized kernel terminates with its result at the layer of
    the arguments' launch contents, and the arguments as launched. -/
theorem run : θ_run defs (onTc (τ := τ) (main (F := Ideal))) ⟨m, fun _ => 0, ρ⟩ fun r => ∀ c : Dev nD,
      r.2.mem ((c.tc : Thread nD τ).loc main_v0) = Cert.Gcn.layer (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.lean ====
/-
  One graph-convolution layer, `PReLU(adj · (seq · Wᵀ) + bias)`, computed by a tiled kernel and by plain array
  operations: the two agree over the extended reals.

  The kernel walks 25 row tiles of `adj` (400 rows each). At the first tile it computes the transformed features
  `seq · Wᵀ` once, into a scratch buffer that every later tile reuses; each tile multiplies its 400 rows of `adj`
  with those features, adds the bias row and applies PReLU with the given slope, `max x 0 + a · min x 0`. The
  reference computes the transformed features for all nodes, multiplies the whole `adj` with them, adds the
  broadcast bias and applies the same PReLU.

  Both sides are, entry by entry, the SAME nested sums: node `r`, feature `f` gets
  `∑_k adj[r, k] · (∑_d seq[k, d] · W[f, d]) + bias[f]`, then PReLU. Tiling only decides which grid point writes a
  row; a matrix product into a zero accumulator is the bare sum because `0 + x = x` at every extended real. No sum
  is re-associated and no product distributed, so the equality needs no finiteness of the inputs.

  The kernel's result as this function of the arguments is `Result.run` (Proof/Pieces, Payloads, Blocks, Result);
  the reference's last stage as the same function is `RefLayer.stage_eq_layer`; the function itself is
  `Cert.Gcn.layer` (Proof/GcnSpec). The kernel's idealization changes no operation of its text, so there is nothing to
  preserve beyond reading the same text over the extended reals.
-/
import proofs.«143079_g12309376271097_cont_fleet_1246_10_alg».proof.Defs
import proofs.«143079_g12309376271097_cont_fleet_1246_10_alg».proof.Proof.Gen.Kernel
import proofs.«143079_g12309376271097_cont_fleet_1246_10_alg».proof.Proof.Gen.Kernel.Skeleton
import proofs.«143079_g12309376271097_cont_fleet_1246_10_alg».proof.Proof.Gen.Kernel.Launch
import proofs.«143079_g12309376271097_cont_fleet_1246_10_alg».proof.Proof.Gen.Kernel.Points
import proofs.«143079_g12309376271097_cont_fleet_1246_10_alg».proof.Proof.Gen.Kernel.Frame
import proofs.«143079_g12309376271097_cont_fleet_1246_10_alg».proof.Proof.Gen.KernelIdeal
import proofs.«143079_g12309376271097_cont_fleet_1246_10_alg».proof.Proof.Gen.KernelIdeal.Skeleton
import proofs.«143079_g12309376271097_cont_fleet_1246_10_alg».proof.Proof.Gen.KernelIdeal.Launch
import proofs.«143079_g12309376271097_cont_fleet_1246_10_alg».proof.Proof.Gen.KernelIdeal.Points
import proofs.«143079_g12309376271097_cont_fleet_1246_10_alg».proof.Proof.Gen.KernelIdeal.Frame
import proofs.«143079_g12309376271097_cont_fleet_1246_10_alg».proof.Proof.Gen.ReferenceIdeal
import proofs.«143079_g12309376271097_cont_fleet_1246_10_alg».proof.Proof.Gen.Pre_finite_inputs
import proofs.«143079_g12309376271097_cont_fleet_1246_10_alg».proof.Proof.Gen.ReferenceIdeal.Run
import proofs.«143079_g12309376271097_cont_fleet_1246_10_alg».proof.Proof.Gen.ReferenceIdeal.Read
import proofs.«143079_g12309376271097_cont_fleet_1246_10_alg».proof.Proof.RefLayer
import proofs.«143079_g12309376271097_cont_fleet_1246_10_alg».proof.Proof.Result
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is seventeen array operations in a row: it runs, and writes only its own results. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From arguments that agree, the kernel's result and the reference's are the layer of those arguments. -/
theorem algebraic : Cert.algebraic_KernelIdeal_ReferenceIdeal := by
  intro m ρ m' ρ' _ hagree
  refine ⟨fun c => Cert.Gcn.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, Cert.ReferenceIdeal.RefLayer.stage_eq_layer,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
